-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S100x256 : S_.BroadcastsInDim S100x256 (![] : Fin 0 → Fin S100x256.rank)
  reducesTo_S100x256_S_d0_1 : S100x256.ReducesTo [0, 1] S_

variable [Facts]

def fn_part1 {F : FTy → Type} [FloatOps F] (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  main_v18

def fn {F : FTy → Type} [FloatOps F] (main_arg0 : FVec F S16384x1024 .f32) (main_arg1 : FVec F S1024x256 .f32) (main_arg2 : FVec F S256 .f32) (main_arg3 : FVec F S100x256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg3
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_v13 main_v16
-- ==== Kernel.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S1x256 : Shape := ⟨2, ![1, 256]⟩
abbrev S16384x100 : Shape := ⟨2, ![16384, 100]⟩
abbrev S2048x1024 : Shape := ⟨2, ![2048, 1024]⟩
abbrev S2048x100 : Shape := ⟨2, ![2048, 100]⟩
abbrev S2048x256 : Shape := ⟨2, ![2048, 256]⟩
abbrev S2048 : Shape := ⟨1, ![2048]⟩
abbrev S2048x1 : Shape := ⟨2, ![2048, 1]⟩
abbrev S256x100 : Shape := ⟨2, ![256, 100]⟩
abbrev S100 : Shape := ⟨1, ![100]⟩
abbrev S1x100 : Shape := ⟨2, ![1, 100]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S256, .f32⟩
  | .hbm, ⟨3, _⟩ => ⟨S100x256, .f32⟩
  | .hbm, ⟨4, _⟩ => ⟨S1x256, .f32⟩
  | .hbm, ⟨5, _⟩ => ⟨S16384x100, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1x256, .f32⟩
  | .local _ .vmem, ⟨4, _⟩ => ⟨S100x256, .f32⟩
  | .local _ .vmem, ⟨5, _⟩ => ⟨S2048x100, .f32⟩
  | .local _ .vmem, ⟨6, _⟩ => ⟨S2048x100, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S100x256_S100x256_0_0 : ∀ a, (![0, 0] : Fin 2 → Nat) a + S100x256.size a ≤ S100x256.size a
  h_S100x256 : 0 < S100x256.numel
  transposes_S100x256_p1_0_S256x100 : S100x256.Transposes [1, 0] S256x100
  reduces_S100x256_S100 : S100x256.Reduces [1] S100
  shapeCasts_S100_S1x100 : S100.ShapeCasts S1x100
  broadcasts_S2048x1_S2048x100 : S2048x1.Broadcasts S2048x100
  broadcasts_S1x100_S2048x100 : S1x100.Broadcasts S2048x100
  inb_S2048x100_S2048x100_0_0 : ∀ a, (![0, 0] : Fin 2 → Nat) a + S2048x100.size a ≤ S2048x100.size a
  h_S2048x100 : 0 < S2048x100.numel
  dot_S2048x1024_S1024x256_S2048x256_1_0_0_1_n_n_wf : DotDims.WF S2048x1024 S1024x256 S2048x256 [1] [0] [0] [1] [] []
  dot_S2048x256_S256x100_S2048x100_1_0_0_1_n_n_wf : DotDims.WF S2048x256 S256x100 S2048x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x100.size a ≤ S16384x100.size a
  hwx0_4 : ∀ i : grid0.Coords, EltTy.bits .f32 = 32 ∨ (Rect.block (s := S16384x100) S2048x100.size (cc0_transform_4 i) (hinb0_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x100_S2048x100_1_0_0_1_n_n : DotDims S2048x256 S256x100 S2048x100 where
  lhsContracting := [1]
  rhsContracting := [0]
  lhsNonContracting := [0]
  rhsNonContracting := [1]
  lhsBatch := []
  rhsBatch := []
  wf := dot_S2048x256_S256x100_S2048x100_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S16384x256 : Shape := ⟨2, ![16384, 256]⟩
abbrev S1x256 : Shape := ⟨2, ![1, 256]⟩
abbrev S_ : Shape := ⟨0, ![]⟩
abbrev S16384 : Shape := ⟨1, ![16384]⟩
abbrev S16384x1 : Shape := ⟨2, ![16384, 1]⟩
abbrev S256x100 : Shape := ⟨2, ![256, 100]⟩
abbrev S16384x100 : Shape := ⟨2, ![16384, 100]⟩
abbrev S100 : Shape := ⟨1, ![100]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S256, .f32⟩
  | .hbm, ⟨3, _⟩ => ⟨S100x256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S256x100, .f32⟩
  | .hbm, ⟨13, _⟩ => ⟨S16384x100, .f32⟩
  | .hbm, ⟨14, _⟩ => ⟨S_, .f32⟩
  | .hbm, ⟨15, _⟩ => ⟨S16384x100, .f32⟩
  | .hbm, ⟨16, _⟩ => ⟨S16384x100, .f32⟩
  | .hbm, ⟨17, _⟩ => ⟨S16384x100, .f32⟩
  | .hbm, ⟨18, _⟩ => ⟨S16384x100, .f32⟩
  | .hbm, ⟨19, _⟩ => ⟨S100x256, .f32⟩
  | .hbm, ⟨20, _⟩ => ⟨S_, .f32⟩
  | .hbm, ⟨21, _⟩ => ⟨S100, .f32⟩
  | .hbm, ⟨22, _⟩ => ⟨S1x100, .f32⟩
  | .hbm, ⟨23, _⟩ => ⟨S16384x100, .f32⟩
  | .hbm, ⟨24, _⟩ => ⟨S16384x100, .f32⟩
  | .hbm, ⟨25, _⟩ => ⟨S16384x100, .f32⟩
  | .hbm, ⟨26, _⟩ => ⟨S_, .f32⟩
  | .hbm, ⟨27, _⟩ => ⟨S16384x100, .f32⟩
  | .hbm, ⟨28, _⟩ => ⟨S16384x100, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  transposes_S100x256_S256x100_1_0 : S100x256.Transposes [1, 0] S256x100
  bcast_S_S16384x100 : S_.BroadcastsInDim S16384x100 (![] : Fin 0 → Fin S16384x100.rank)
  bcast_S16384x1_S16384x100_0_1 : S16384x1.BroadcastsInDim S16384x100 (![0, 1] : Fin 2 → Fin S16384x100.rank)
  reducesTo_S100x256_S100_d1 : S100x256.ReducesTo [1] S100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  dot_S16384x1024_S1024x256_S16384x256_1_0_0_1_n_n_wf : DotDims.WF S16384x1024 S1024x256 S16384x256 [1] [0] [0] [1] [] []
  dot_S16384x256_S256x100_S16384x100_1_0_0_1_n_n_wf : DotDims.WF S16384x256 S256x100 S16384x100 [1] [0] [0] [1] [] []

variable [Facts₀]

def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x100_S16384x100_1_0_0_1_n_n : DotDims S16384x256 S256x100 S16384x100 where
  lhsContracting := [1]
  rhsContracting := [0]
  lhsNonContracting := [0]
  rhsNonContracting := [1]
  lhsBatch := []
  rhsBatch := []
  wf := dot_S16384x256_S256x100_S16384x100_1_0_0_1_n_n_wf

class Facts : Prop extends Facts₀ where

variable [Facts]
-- ==== Proof.Spec.lean ====
/-
  What the score array holds, as one formula over the extended reals.

  The encoder sends row `r` of `x` to `z_r = x_r · W + b` (256 coordinates), and the score of row `r` against
  prototype `c` is minus the squared distance `‖z_r − P_c‖²`, written in its expanded form
  `(Σ_j z_r[j]² − 2 · Σ_j z_r[j] · P_c[j]) + Σ_j P_c[j]²`, over 256. Both programs compute exactly this tree of
  operations, in this order; the formula is stated once here, over plain coordinate functions, for any number of
  rows — the whole array has 16384, a block of the grid 2048 — so that the two sides are compared term by term.
  The two float literals (`2.0` and `256.0`) stay the words the programs print: the same word on both sides is
  never evaluated.
-/
import Idealize.ShloMosaic.PureOps.Ideal

noncomputable section

open scoped BigOperators

namespace Cert.ProtoScore

open Idealize.ShloMosaic

/-- Coordinate `j` of the encoded row `r`: `Σ_k x[r,k] · W[k,j] + b[j]`. -/
def enc {n : Nat} (x : Fin n → Fin 1024 → EReal) (W : Fin 1024 → Fin 256 → EReal) (b : Fin 256 → EReal)
    (r : Fin n) (j : Fin 256) : EReal :=
  (∑ k : Fin 1024, x r k * W k j) + b j

/-- The score of row `r` against prototype `c`: `−((Σ_j z[j]² − 2 · Σ_j z[j] · P[c,j]) + Σ_j P[c,j]²) / 256` with
    `z = enc x W b r`. -/
def scoreAt {n : Nat} (x : Fin n → Fin 1024 → EReal) (W : Fin 1024 → Fin 256 → EReal) (b : Fin 256 → EReal)
    (P : Fin 100 → Fin 256 → EReal) (r : Fin n) (c : Fin 100) : EReal :=
  Ideal.div
    (-(((∑ j : Fin 256, enc x W b r j * enc x W b r j)
        - Ideal.ofBits .f32 0x40000000#32 * ∑ j : Fin 256, enc x W b r j * P c j)
      + ∑ j : Fin 256, P c j * P c j))
    (Ideal.ofBits .f32 0x43800000#32)

/-- The score of row `r` against prototype `c` depends on `x` through row `r` alone and on `P` through row `c` alone:
    two families of arrays (the `x`s of any heights) that agree there, and on `W` and `b`, give the same score. This is
    what lets a block of 2048 rows stand for its rows of the whole array. -/
theorem scoreAt_congr {n n' : Nat} (x : Fin n → Fin 1024 → EReal) (x' : Fin n' → Fin 1024 → EReal)
    (W W' : Fin 1024 → Fin 256 → EReal) (b b' : Fin 256 → EReal) (P P' : Fin 100 → Fin 256 → EReal)
    (r : Fin n) (r' : Fin n') (c : Fin 100) (hx : ∀ k, x r k = x' r' k) (hW : ∀ k j, W k j = W' k j)
    (hb : ∀ j, b j = b' j) (hP : ∀ j, P c j = P' c j) :
    scoreAt x W b P r c = scoreAt x' W' b' P' r' c := by
  unfold scoreAt enc
  simp only [hx, hW, hb, hP]

/-- On the extended reals `0 − a` is `−a`, at the infinities too (subtraction is adding the negative, and `0` is
    neutral for addition everywhere). -/
theorem zero_sub_ereal (a : EReal) : 0 - a = -a := by
  rw [sub_eq_add_neg, zero_add]

end Cert.ProtoScore

end
-- ==== Proof.RefValue.lean ====
/-
  The reference program's result is the score formula.

  Read one operation at a time, the reference computes at the index `(r, c)`: the encoded row
  `z_r[j] = Σ_k x[r,k] · W[k,j] + b[j]` (a `dot_general` and a broadcast bias), its squared norm `Σ_j z_r[j]²` (a
  row sum kept as a column and broadcast back), the cross term `Σ_j z_r[j] · P[c,j]` (a `dot_general` with the
  transposed prototypes) doubled, the prototypes' squared norms `Σ_j P[c,j]²` (a row sum broadcast down the rows),
  combined as `(zz − 2·cross) + pp`, negated and divided by 256. Every layout operation on the way only moves an
  index, and the indices it composes are the plain coordinates `(r, k)`, `(k, j)`, `(j)`, `(c, j)`; the two host
  sums start from the zero word, which is the real zero.
-/
import proofs.«152700_j49993419325594_1_alg».proof.Proof.Gen.ReferenceIdeal.Read
import proofs.«152700_j49993419325594_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## The composed index maps are the plain coordinates -/

/-- The squared-norm column, broadcast back and summed over `j`, reads the encoded row at `(r, j)`. -/
theorem idx_norm (r : Fin 16384) (c : Fin 100) (j : Fin 256) :
    idx_main_v5 (idx_main_v6 (idx_main_v11 (ix2 r c))) j = ix2 r j :=
  funext fun a => Fin.ext (by match a with | ⟨0, _⟩ => rfl | ⟨1, _⟩ => rfl)

/-- The cross term's left operand at contraction index `j` is the encoded row at `(r, j)`. -/
theorem idx_cross_l (r : Fin 16384) (c : Fin 100) (j : Fin 256) : lidx_main_v8 (ix2 r c) j = ix2 r j :=
  funext fun a => Fin.ext (by match a with | ⟨0, _⟩ => rfl | ⟨1, _⟩ => rfl)

/-- The cross term's right operand, the transposed prototypes, reads `P` at `(c, j)`. -/
theorem idx_cross_r (r : Fin 16384) (c : Fin 100) (j : Fin 256) : idx_main_v7 (ridx_main_v8 (ix2 r c) j) = ix2 c j :=
  funext fun a => Fin.ext (by match a with | ⟨0, _⟩ => rfl | ⟨1, _⟩ => rfl)

/-- The encoder's product at `(r, j)` reads `x` at `(r, k)` -/
theorem idx_enc_l (r : Fin 16384) (j : Fin 256) (k : Fin 1024) : lidx_main_v0 (ix2 r j) k = ix2 r k :=
  funext fun a => Fin.ext (by match a with | ⟨0, _⟩ => rfl | ⟨1, _⟩ => rfl)

/-- and `W` at `(k, j)`. -/
theorem idx_enc_r (r : Fin 16384) (j : Fin 256) (k : Fin 1024) : ridx_main_v0 (ix2 r j) k = ix2 k j :=
  funext fun a => Fin.ext (by match a with | ⟨0, _⟩ => rfl | ⟨1, _⟩ => rfl)

/-- The bias, made a row and broadcast down the rows, reads `b` at `j`. -/
theorem idx_bias (r : Fin 16384) (j : Fin 256) : idx_main_v1 (idx_main_v2 (ix2 r j)) = ix1 j :=
  funext fun a => Fin.ext (by match a with | ⟨0, _⟩ => rfl)

/-- The prototypes' squared norms, made a row and broadcast down the rows, sum `P` at `(c, j)`. -/
theorem idx_pnorm (r : Fin 16384) (c : Fin 100) (j : Fin 256) :
    idx_main_v14 (idx_main_v15 (idx_main_v16 (ix2 r c))) j = ix2 c j :=
  funext fun a => Fin.ext (by match a with | ⟨0, _⟩ => rfl | ⟨1, _⟩ => rfl)

/-! ## The last stage at an index -/

/-- The reference's result at `(r, c)` is the score of row `r` against prototype `c`. -/
theorem result_apply (x : FVec Ideal S16384x1024 .f32) (W : FVec Ideal S1024x256 .f32) (b : FVec Ideal S256 .f32)
    (P : FVec Ideal S100x256 .f32) (r : Fin 16384) (c : Fin 100) :
    val_main_v20 (F := Ideal) x W b P (ix2 r c)
      = ProtoScore.scoreAt (fun r k => x (ix2 r k)) (fun k j => W (ix2 k j)) (fun j => b (ix1 j))
          (fun c j => P (ix2 c j)) r c := by
  simp only [val_main_v20_apply, val_main_v19_apply, val_main_cst_2_apply, val_main_v18_apply, val_main_v17_apply,
    val_main_v16_apply, val_main_v15_apply, val_main_v14_apply, val_main_v13_apply, val_main_cst_1_apply,
    val_main_v12_apply, val_main_v11_apply, val_main_v10_apply, val_main_v9_apply, val_main_cst_0_apply,
    val_main_v8_apply, val_main_v7_apply, val_main_v6_apply, val_main_v5_apply, val_main_v4_apply, val_main_cst_apply,
    val_main_v3_apply, val_main_v2_apply, val_main_v1_apply, val_main_v0_apply,
    idx_norm, idx_cross_l, idx_cross_r, idx_enc_l, idx_enc_r, idx_bias, idx_pnorm,
    Ideal.ofBits_def, Ideal.ofBits_zero_f32, zero_add, Ideal.addf_def, Ideal.subf_def, Ideal.mulf_def,
    Ideal.hostDivf_def, Ideal.hostNegf_def, Ideal.negf_def]
  rfl

end Cert.ReferenceIdeal.RefValue

end
-- ==== Proof.Payload.lean ====
/-
  The kernel body's one stored value, read at an index of its block.

  At a grid point the body loads a block `x0` of 2048 rows of `x`, all of `W` (`x1`), the bias as a row (`x2`) and all
  of the prototypes (`x3`), and stores ONE value: with `z[p,j] = Σ_k x0[p,k] · x1[k,j] + x2[0,j]` (a matrix product
  into a zero accumulator plus the bias row broadcast down the rows; the changes of float format are the identity
  on the extended reals), the entry at `(p, q)` is
  `(0 − ((Σ_j z[p,j]² − 2 · Σ_j z[p,j] · x3[q,j]) + Σ_j x3[q,j]²)) / 256`.
  The row sums are lane reductions from the zero word; the first is kept as a column `[2048, 1]` and broadcast
  along the rows, the second made a row `[1, 100]` and broadcast down them; the cross term is a matrix product with
  the transposed prototypes. Read at `(p, q)` this is the score formula of the block's row `p` against prototype
  `q`: the only step that is not reading an index is `0 − a = −a`.
-/
import proofs.«152700_j49993419325594_1_alg».proof.Proof.Gen.KernelIdeal.Skeleton
import proofs.«152700_j49993419325594_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products at an index -/

theorem lhs_enc_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_enc_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_enc_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_enc_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- The encoder's product into the zero accumulator, at `(p, j)`: the sum over the 1024 contracted coordinates. -/
theorem enc_matmul_apply (u : FVec Ideal S2048x1024 .bf16) (w : FVec Ideal S1024x256 .bf16) (p : Fin 2048) (q : Fin 256) :
    matmul dot_S2048x1024_S1024x256_S2048x256_1_0_0_1_n_n none u w (constant (F := Ideal) S2048x256 .f32 0x00000000#32) (ix2 p q)
      = ∑ k : Fin 1024, u (ix2 p k) * w (ix2 k q) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p q) ((contrEquiv1 dot_S2048x1024_S1024x256_S2048x256_1_0_0_1_n_n 1024 rfl rfl).symm k) = ix2 p k := funext fun a => Fin.ext (by
    match a with
    | ⟨0, _⟩ => exact lhs_enc_0 _ _
    | ⟨1, _⟩ => exact (lhs_enc_1 _ _).trans hk)
  have er : dot_S2048x1024_S1024x256_S2048x256_1_0_0_1_n_n.rhsIdx (ix2 p q) ((contrEquiv1 dot_S2048x1024_S1024x256_S2048x256_1_0_0_1_n_n 1024 rfl rfl).symm k) = ix2 k q := funext fun a => Fin.ext (by
    match a with
    | ⟨0, _⟩ => exact (rhs_enc_0 _ _).trans hk
    | ⟨1, _⟩ => exact rhs_enc_1 _ _)
  rw [el, er]

theorem lhs_cross_0 (i : S2048x100.Idx) (q : dot_S2048x256_S256x100_S2048x100_1_0_0_1_n_n.contr.Idx) :
    (dot_S2048x256_S256x100_S2048x100_1_0_0_1_n_n.lhsIdx i q 0).val = (i 0).val := by
  unfold DotDims.lhsIdx
  rw [dif_neg (show ¬(0 : Fin S2048x256.rank) ∈ dot_S2048x256_S256x100_S2048x100_1_0_0_1_n_n.lhsBatch by decide), dif_pos (show (0 : Fin S2048x256.rank) ∈ dot_S2048x256_S256x100_S2048x100_1_0_0_1_n_n.lhsNonContracting by decide)]
  rfl
theorem lhs_cross_1 (i : S2048x100.Idx) (q : dot_S2048x256_S256x100_S2048x100_1_0_0_1_n_n.contr.Idx) :
    (dot_S2048x256_S256x100_S2048x100_1_0_0_1_n_n.lhsIdx i q 1).val = (q ⟨0, by decide⟩).val :=
  dot_S2048x256_S256x100_S2048x100_1_0_0_1_n_n.lhsIdx_val_of_single rfl i q
theorem rhs_cross_0 (i : S2048x100.Idx) (q : dot_S2048x256_S256x100_S2048x100_1_0_0_1_n_n.contr.Idx) :
    (dot_S2048x256_S256x100_S2048x100_1_0_0_1_n_n.rhsIdx i q 0).val = (q ⟨0, by decide⟩).val :=
  dot_S2048x256_S256x100_S2048x100_1_0_0_1_n_n.rhsIdx_val_of_single rfl i q
theorem rhs_cross_1 (i : S2048x100.Idx) (q : dot_S2048x256_S256x100_S2048x100_1_0_0_1_n_n.contr.Idx) :
    (dot_S2048x256_S256x100_S2048x100_1_0_0_1_n_n.rhsIdx i q 1).val = (i 1).val := by
  unfold DotDims.rhsIdx
  rw [dif_neg (show ¬(1 : Fin S256x100.rank) ∈ dot_S2048x256_S256x100_S2048x100_1_0_0_1_n_n.rhsBatch by decide), dif_pos (show (1 : Fin S256x100.rank) ∈ dot_S2048x256_S256x100_S2048x100_1_0_0_1_n_n.rhsNonContracting by decide)]
  rfl

/-- The cross term's product into the zero accumulator, at `(p, q)`: the sum over the 256 contracted coordinates. -/
theorem cross_matmul_apply (u : FVec Ideal S2048x256 .bf16) (w : FVec Ideal S256x100 .bf16) (p : Fin 2048) (q : Fin 100) :
    matmul dot_S2048x256_S256x100_S2048x100_1_0_0_1_n_n none u w (constant (F := Ideal) S2048x100 .f32 0x00000000#32) (ix2 p q)
      = ∑ k : Fin 256, u (ix2 p k) * w (ix2 k q) := by
  simp only [matmul]
  rw [Ideal.matmul_constant_zero_apply, ← Equiv.sum_comp (contrEquiv1 dot_S2048x256_S256x100_S2048x100_1_0_0_1_n_n 256 rfl rfl).symm]
  refine Finset.sum_congr rfl fun k _ => ?_
  have hk := contrEquiv1_symm_val dot_S2048x256_S256x100_S2048x100_1_0_0_1_n_n 256 rfl rfl k
  have el : dot_S2048x256_S256x100_S2048x100_1_0_0_1_n_n.lhsIdx (ix2 p q) ((contrEquiv1 dot_S2048x256_S256x100_S2048x100_1_0_0_1_n_n 256 rfl rfl).symm k) = ix2 p k := funext fun a => Fin.ext (by
    match a with
    | ⟨0, _⟩ => exact lhs_cross_0 _ _
    | ⟨1, _⟩ => exact (lhs_cross_1 _ _).trans hk)
  have er : dot_S2048x256_S256x100_S2048x100_1_0_0_1_n_n.rhsIdx (ix2 p q) ((contrEquiv1 dot_S2048x256_S256x100_S2048x100_1_0_0_1_n_n 256 rfl rfl).symm k) = ix2 k q := funext fun a => Fin.ext (by
    match a with
    | ⟨0, _⟩ => exact (rhs_cross_0 _ _).trans hk
    | ⟨1, _⟩ => exact rhs_cross_1 _ _)
  rw [el, er]

/-! ## The layout operations and the lane sums at an index -/

/-- The transposed prototypes at `(j, q)` are the prototypes at `(q, j)`. -/
theorem proto_transpose_apply (y : FVec Ideal S100x256 .bf16) (j : Fin 256) (q : Fin 100) :
    transpose S256x100 [1, 0] y transposes_S100x256_p1_0_S256x100 (ix2 j q) = y (ix2 q j) :=
  transpose_apply [1, 0] y transposes_S100x256_p1_0_S256x100 (ix2 j q) (ix2 q j) (fun b => match b with
    | ⟨0, _⟩ => rfl
    | ⟨1, _⟩ => rfl)

/-- The bias row, cast to its own shape and broadcast down the 2048 rows, at `(p, j)` is the row at `j`. -/
theorem bias_bcast_apply (v : FVec Ideal S1x256 .f32) (p : Fin 2048) (j : Fin 256) :
    broadcastTo S2048x256 (shapeCast S1x256 v shapeCasts_S1x256_S1x256) broadcasts_S1x256_S2048x256 (ix2 p j)
      = v (ix2 (0 : Fin 1) j) := by
  rw [shapeCast_self]
  exact broadcastTo_1b_ab_apply v broadcasts_S1x256_S2048x256 p j

/-- A vector of 2048 row values kept as a column `[2048, 1]` and broadcast along the 100 columns: at `(p, q)` it is
    the value of row `p`. -/
theorem col_bcast_apply (v : FVec Ideal S2048 .f32) (p : Fin 2048) (q : Fin 100) :
    broadcastTo S2048x100 (shapeCast S2048x1 v shapeCasts_S2048_S2048x1) broadcasts_S2048x1_S2048x100 (ix2 p q)
      = v (ix1 p) := by
  refine (broadcastTo_apply (shapeCast S2048x1 v shapeCasts_S2048_S2048x1) broadcasts_S2048x1_S2048x100 (ix2 p q)
    (ix2 p (0 : Fin 1)) (fun a => ?_)).trans ?_
  · match a with
    | ⟨0, _⟩ => show p.val = if (2048 : Nat) = 1 then 0 else p.val; rw [if_neg (by decide)]
    | ⟨1, _⟩ => show (0 : Nat) = if (1 : Nat) = 1 then 0 else q.val; rw [if_pos rfl]
  · exact shapeCast_apply v shapeCasts_S2048_S2048x1 (ix2 p (0 : Fin 1)) (ix1 p) (by
      rw [Shape.rowMajor_val_one, Shape.rowMajor_val_two]
      show p.val = p.val * 1 + 0
      omega)

/-- A vector of 100 column values made a row `[1, 100]` and broadcast down the 2048 rows: at `(p, q)` it is the
    value of column `q`. -/
theorem row_bcast_apply (v : FVec Ideal S100 .f32) (p : Fin 2048) (q : Fin 100) :
    broadcastTo S2048x100 (shapeCast S1x100 v shapeCasts_S100_S1x100) broadcasts_S1x100_S2048x100 (ix2 p q)
      = v (ix1 q) :=
  (broadcastTo_1b_ab_apply (shapeCast S1x100 v shapeCasts_S100_S1x100) broadcasts_S1x100_S2048x100 p q).trans
    (shapeCast_a_1a_apply v shapeCasts_S100_S1x100 (0 : Fin 1) q)

/-- The lane sum of a `[2048, 256]` block from the zero word, at row `p`: the sum over the 256 lanes. -/
theorem rowsum_block_apply (v : FVec Ideal S2048x256 .f32) (p : Fin 2048) :
    multiReduction .add [1] S2048 v 0x00000000#32 reduces_S2048x256_S2048 (.inl rfl) rfl (ix1 p)
      = ∑ j : Fin 256, v (ix2 p j) := by
  refine (Ideal.multiReduction_add_single v 0x00000000#32 reduces_S2048x256_S2048 (.inl rfl) rfl (ix1 p)).trans ?_
  exact Finset.sum_congr rfl fun j _ => congrArg v (funext fun a => Fin.ext (by
    match a with | ⟨0, _⟩ => rfl | ⟨1, _⟩ => rfl))

/-- The lane sum of the `[100, 256]` prototypes' squares from the zero word, at prototype `q`. -/
theorem rowsum_proto_apply (v : FVec Ideal S100x256 .f32) (q : Fin 100) :
    multiReduction .add [1] S100 v 0x00000000#32 reduces_S100x256_S100 (.inl rfl) rfl (ix1 q)
      = ∑ j : Fin 256, v (ix2 q j) := by
  refine (Ideal.multiReduction_add_single v 0x00000000#32 reduces_S100x256_S100 (.inl rfl) rfl (ix1 q)).trans ?_
  exact Finset.sum_congr rfl fun j _ => congrArg v (funext fun a => Fin.ext (by
    match a with | ⟨0, _⟩ => rfl | ⟨1, _⟩ => rfl))

/-! ## The encoded block -/

/-- The encoded block `z`: the product of the loaded `x` block and `W` into the zero accumulator, plus the bias row
    broadcast down the rows (the body's value `%8`). -/
def zblk (x0 : Vec Ideal S2048x1024 .f32) (x1 : Vec Ideal S1024x256 .f32) (x2 : Vec Ideal S1x256 .f32) : FVec Ideal S2048x256 .f32 :=
  addf (matmul dot_S2048x1024_S1024x256_S2048x256_1_0_0_1_n_n none (truncf .bf16 x0 bitsLt_bf16_f32) (truncf .bf16 x1 bitsLt_bf16_f32) (constant (F := Ideal) S2048x256 .f32 0x00000000#32))
    (broadcastTo S2048x256 (shapeCast S1x256 x2 shapeCasts_S1x256_S1x256) broadcasts_S1x256_S2048x256)

/-- At `(p, j)` it is coordinate `j` of the encoded row `p` of the block. -/
theorem zblk_apply (x0 : Vec Ideal S2048x1024 .f32) (x1 : Vec Ideal S1024x256 .f32) (x2 : Vec Ideal S1x256 .f32)
    (p : Fin 2048) (j : Fin 256) :
    zblk x0 x1 x2 (ix2 p j)
      = ProtoScore.enc (fun p k => x0 (ix2 p k)) (fun k j => x1 (ix2 k j)) (fun j => x2 (ix2 (0 : Fin 1) j)) p j := by
  unfold zblk ProtoScore.enc
  rw [addf_apply, enc_matmul_apply, bias_bcast_apply]
  rfl

/-! ## The stored value -/

/-- The body's stored value over the encoded block: the printed tree of operations with `z` named. -/
theorem pay_eq (x0 : Vec Ideal S2048x1024 .f32) (x1 : Vec Ideal S1024x256 .f32) (x2 : Vec Ideal S1x256 .f32) (x3 : Vec Ideal S100x256 .f32) :
    k0_pay1 x0 x1 x2 x3 x3 x3
      = divf (subf (broadcast S2048x100 (Scalar.ofBits (F := Ideal) .f32 0x00000000#32))
          (addf (subf
              (broadcastTo S2048x100 (shapeCast S2048x1 (multiReduction .add [1] S2048 (mulf (zblk x0 x1 x2) (zblk x0 x1 x2)) 0x00000000#32 reduces_S2048x256_S2048 (.inl rfl) rfl) shapeCasts_S2048_S2048x1) broadcasts_S2048x1_S2048x100)
              (mulf (broadcast S2048x100 (Scalar.ofBits (F := Ideal) .f32 0x40000000#32))
                (matmul dot_S2048x256_S256x100_S2048x100_1_0_0_1_n_n none (truncf .bf16 (zblk x0 x1 x2) bitsLt_bf16_f32) (transpose S256x100 [1, 0] (truncf .bf16 x3 bitsLt_bf16_f32) transposes_S100x256_p1_0_S256x100) (constant (F := Ideal) S2048x100 .f32 0x00000000#32))))
            (broadcastTo S2048x100 (shapeCast S1x100 (multiReduction .add [1] S100 (mulf x3 x3) 0x00000000#32 reduces_S100x256_S100 (.inl rfl) rfl) shapeCasts_S100_S1x100) broadcasts_S1x100_S2048x100)))
        (broadcast S2048x100 (Scalar.ofBits (F := Ideal) .f32 0x43800000#32)) := rfl

/-- THE STORED VALUE AT `(p, q)`: the score of the block's row `p` against prototype `q`. -/
theorem pay_apply (x0 : Vec Ideal S2048x1024 .f32) (x1 : Vec Ideal S1024x256 .f32) (x2 : Vec Ideal S1x256 .f32) (x3 : Vec Ideal S100x256 .f32)
    (p : Fin 2048) (q : Fin 100) :
    k0_pay1 x0 x1 x2 x3 x3 x3 (ix2 p q)
      = ProtoScore.scoreAt (fun p k => x0 (ix2 p k)) (fun k j => x1 (ix2 k j)) (fun j => x2 (ix2 (0 : Fin 1) j))
          (fun c j => x3 (ix2 c j)) p q := by
  have hs : ∀ b : BitVec 32, Scalar.ofBits (F := Ideal) .f32 b = Ideal.ofBits .f32 b := fun _ => rfl
  rw [pay_eq]
  rw [divf_apply, subf_apply, addf_apply, subf_apply, mulf_apply, col_bcast_apply, row_bcast_apply,
    rowsum_block_apply, rowsum_proto_apply, cross_matmul_apply]
  have ht : ∀ j : Fin 256, transpose S256x100 [1, 0] (truncf (F := Ideal) (φ := .f32) .bf16 x3 bitsLt_bf16_f32) transposes_S100x256_p1_0_S256x100 (ix2 j q)
      = truncf (F := Ideal) (φ := .f32) .bf16 x3 bitsLt_bf16_f32 (ix2 q j) :=
    fun j => proto_transpose_apply (truncf (F := Ideal) (φ := .f32) .bf16 x3 bitsLt_bf16_f32) j q
  simp only [broadcast_apply, mulf_apply, truncf_apply, ht, zblk_apply, hs,
    Ideal.ofBits_zero_f32, ProtoScore.zero_sub_ereal]
  rfl

end Cert.KernelIdeal.Payload

end
-- ==== Proof.ScoreArray.lean ====
/-
  From the blocks to the whole score array.

  The grid has 8 points; point `t` stages rows `2048·t … 2048·t + 2047` of `x`, all of `W`, the bias as a `[1, 256]`
  row (the host reshapes `b` before the call) and all of the prototypes, and writes back rows `2048·t …` of the
  `[16384, 100]` result. So the entry the body leaves at `(p, q)` of its block is, by the payload read at an index,
  the score of row `2048·t + p` of the whole `x` against prototype `q`: block `t` of ONE function of the argument
  arrays. The 8 row blocks tile the result, so after the run the array is that function everywhere.
-/
import proofs.«152700_j49993419325594_1_alg».proof.Proof.Gen.KernelIdeal.Value
import proofs.«152700_j49993419325594_1_alg».proof.Proof.Payload
import Idealize.ShloMosaic.Lib.Pipeline.Value
import Idealize.ShloMosaic.Lib.ValueLayout
import Idealize.ShloMosaic.Lib.StableHlo.Run

set_option maxRecDepth 16384

noncomputable section

namespace Cert.KernelIdeal.ScoreArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays and the score array -/

/-- The four argument arrays as launched, at their literal shapes. -/
abbrev xArr (c : Dev nD) : FVec Ideal S16384x1024 .f32 := m ((c : Thread nD τ).loc main_arg0)
abbrev wArr (c : Dev nD) : FVec Ideal S1024x256 .f32 := m ((c : Thread nD τ).loc main_arg1)
abbrev bArr (c : Dev nD) : FVec Ideal S256 .f32 := m ((c : Thread nD τ).loc main_arg2)
abbrev pArr (c : Dev nD) : FVec Ideal S100x256 .f32 := m ((c : Thread nD τ).loc main_arg3)

/-- THE SCORE ARRAY: at `(r, c)` the score of row `r` of `x` against prototype `c`. -/
def score (c : Dev nD) : FVec Ideal S16384x100 .f32 := fun i =>
  ProtoScore.scoreAt (fun r k => xArr m c (ix2 r k)) (fun k j => wArr m c (ix2 k j)) (fun j => bArr m c (ix1 j))
    (fun q j => pArr m c (ix2 q j)) (i 0) (i 1)

/-! ## The grid's index maps -/

theorem hz : (![0, 0] : Fin 2 → Nat) = fun _ => 0 := funext fun a => by fin_cases a <;> rfl

/-- The printed index maps, decided over the 8 points: the `x` window moves down the rows with the output window
    and neither moves along the columns; the three resident windows stay at block `(0, 0)`. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every row block of the result is some point's. -/
theorem idx_onto : ∀ q0 : Fin 8, ∃ t : Fin cfg0.N, win0_4.index t = ![q0.val, 0] :=
  (by decide +kernel : ∀ q0 : Fin 8, ∃ t : Fin grid0.N, win0_4.index t = ![q0.val, 0])

/-! ## The input blocks at the entries the score reads -/

/-- The `x` block at point `t`, entry `(p, k)`: row `2048·(block index) + p` of `x`, column `k`. -/
theorem xblk_apply (c : Dev nD) (t : Fin cfg0.N) (p : Fin 2048) (k : Fin 1024) (r : Fin 16384)
    (hr : r.val = win0_4.index t (0 : Fin 2) * 2048 + p.val) :
    (iblk m c 0 t : Vec Ideal S2048x1024 .f32) (ix2 p k) = xArr m c (ix2 r k) := by
  obtain ⟨e0, e1, e2, e3, e4, e5, e6, e7, e8, e9⟩ := idx_facts t
  show V m c main_arg0 (((cfg0.win 0).blk t).view.emb (ix2 p k)) = _
  rw [V_main_arg0]
  show xArr m c (((cfg0.win 0).blk t).view.emb (ix2 p k)) = xArr m c (ix2 r k)
  congr 1
  funext a
  apply Fin.ext
  match a with
  | ⟨0, _⟩ => show win0_0.index t (0 : Fin 2) * 2048 + 1 * p.val = r.val; omega
  | ⟨1, _⟩ => show win0_0.index t (1 : Fin 2) * 1024 + 1 * k.val = k.val; omega

/-- The `W` block is all of `W`. -/
theorem wblk_apply (c : Dev nD) (t : Fin cfg0.N) (k : Fin 1024) (j : Fin 256) :
    (iblk m c 1 t : Vec Ideal S1024x256 .f32) (ix2 k j) = wArr m c (ix2 k j) := by
  obtain ⟨e0, e1, e2, e3, e4, e5, e6, e7, e8, e9⟩ := idx_facts t
  show V m c main_arg1 (((cfg0.win 1).blk t).view.emb (ix2 k j)) = _
  rw [V_main_arg1]
  show wArr m c (((cfg0.win 1).blk t).view.emb (ix2 k j)) = wArr m c (ix2 k j)
  congr 1
  funext a
  apply Fin.ext
  match a with
  | ⟨0, _⟩ => show win0_1.index t (0 : Fin 2) * 1024 + 1 * k.val = k.val; omega
  | ⟨1, _⟩ => show win0_1.index t (1 : Fin 2) * 256 + 1 * j.val = j.val; omega

/-- The prototypes' block is all of the prototypes. -/
theorem pblk_apply (c : Dev nD) (t : Fin cfg0.N) (q : Fin 100) (j : Fin 256) :
    (iblk m c 3 t : Vec Ideal S100x256 .f32) (ix2 q j) = pArr m c (ix2 q j) := by
  obtain ⟨e0, e1, e2, e3, e4, e5, e6, e7, e8, e9⟩ := idx_facts t
  show V m c main_arg3 (((cfg0.win 3).blk t).view.emb (ix2 q j)) = _
  rw [V_main_arg3]
  show pArr m c (((cfg0.win 3).blk t).view.emb (ix2 q j)) = pArr m c (ix2 q j)
  congr 1
  funext a
  apply Fin.ext
  match a with
  | ⟨0, _⟩ => show win0_3.index t (0 : Fin 2) * 100 + 1 * q.val = q.val; omega
  | ⟨1, _⟩ => show win0_3.index t (1 : Fin 2) * 256 + 1 * j.val = j.val; omega

/-- The array the bias window stages is what the host made of `b` before the call: `b` as a `[1, 256]` row. -/
theorem V_bias (c : Dev nD) :
    (V m c main_v0 : FVec Ideal S1x256 .f32) = shapeCast S1x256 (bArr m c) shapeCasts_S256_S1x256 := by
  dsimp only [Gen.V, Gen.hostOps0]
  after_results
  rfl

/-- The bias block at `(0, j)` is `b` at `j`. -/
theorem bblk_apply (c : Dev nD) (t : Fin cfg0.N) (j : Fin 256) :
    (iblk m c 2 t : Vec Ideal S1x256 .f32) (ix2 (0 : Fin 1) j) = bArr m c (ix1 j) := by
  obtain ⟨e0, e1, e2, e3, e4, e5, e6, e7, e8, e9⟩ := idx_facts t
  show (V m c main_v0 : FVec Ideal S1x256 .f32) (((cfg0.win 2).blk t).view.emb (ix2 (0 : Fin 1) j)) = _
  rw [V_bias]
  have he : ((cfg0.win 2).blk t).view.emb (ix2 (0 : Fin 1) j) = ix2 (0 : Fin 1) j := by
    funext a
    apply Fin.ext
    match a with
    | ⟨0, _⟩ => show win0_2.index t (0 : Fin 2) * 1 + 1 * 0 = 0; omega
    | ⟨1, _⟩ => show win0_2.index t (1 : Fin 2) * 256 + 1 * j.val = j.val; omega
  rw [he]
  exact shapeCast_a_1a_apply (bArr m c) shapeCasts_S256_S1x256 (0 : Fin 1) j

/-! ## What each point writes back -/

/-- The array index under entry `(p, q)` of point `t`'s output block: row `2048·(block index) + p`, column `q`. -/
theorem emb_out (t : Fin cfg0.N) (p : Fin 2048) (q : Fin 100) :
    ∃ r : Fin 16384, r.val = win0_4.index t (0 : Fin 2) * 2048 + p.val
      ∧ ((cfg0.win 4).blk t).view.emb (ix2 p q) = ix2 r q := by
  obtain ⟨e0, e1, e2, e3, e4, e5, e6, e7, e8, e9⟩ := idx_facts t
  refine ⟨⟨win0_4.index t (0 : Fin 2) * 2048 + p.val, by have := p.isLt; omega⟩, rfl, ?_⟩
  funext a
  apply Fin.ext
  match a with
  | ⟨0, _⟩ => show win0_4.index t (0 : Fin 2) * 2048 + 1 * p.val = win0_4.index t (0 : Fin 2) * 2048 + p.val; omega
  | ⟨1, _⟩ => show win0_4.index t (1 : Fin 2) * 100 + 1 * q.val = q.val; omega

/-- WHAT POINT `t` WRITES BACK is block `t` of the score array. -/
theorem flushed_eq (c : Dev nD) (t : Fin cfg0.N) :
    (dats m 0 c).flushed 4 t = ((cfg0.win 4).blk t).view.read (Elt Ideal) (score m c) := by
  rw [Value.flushed4]
  unfold out0_4
  rw [View.canon_unit_zero hz]
  simp only [View.ld_unit_zero (S := S2048x1024) hz, View.ld_unit_zero (S := S1024x256) hz,
    View.ld_unit_zero (S := S1x256) hz, View.ld_unit_zero (S := S100x256) hz]
  funext j
  obtain ⟨p, q, rfl⟩ : ∃ (p : Fin 2048) (q : Fin 100), j = ix2 p q := ⟨j 0, j 1, eq_ix2 (n0 := 2048) (n1 := 100) j⟩
  obtain ⟨r, hr, hemb⟩ := emb_out t p q
  show k0_pay1 (iblk m c 0 t) (iblk m c 1 t) (iblk m c 2 t) (iblk m c 3 t) (iblk m c 3 t) (iblk m c 3 t) (ix2 p q)
    = score m c (((cfg0.win 4).blk t).view.emb (ix2 p q))
  rw [hemb]
  refine (Payload.pay_apply (iblk m c 0 t) (iblk m c 1 t) (iblk m c 2 t) (iblk m c 3 t) p q).trans ?_
  exact ProtoScore.scoreAt_congr _ _ _ _ _ _ _ _ p r q (fun k => xblk_apply m c t p k r hr)
    (fun k j => wblk_apply m c t k j) (fun j => bblk_apply m c t j) (fun j => pblk_apply m c t q j)

/-! ## The blocks tile the result -/

/-- An index of the result is in point `t`'s block iff each coordinate is in the block's range on its axis. -/
theorem mem_blk (t : Fin cfg0.N) (i : S16384x100.Idx) :
    i ∈ ((cfg0.win 4).blk t).view.set ↔ ∀ a : Fin 2, win0_4.index t a * S2048x100.size a ≤ (i a).val
      ∧ (i a).val < win0_4.index t a * S2048x100.size a + S2048x100.size a := by
  show i ∈ ((View.whole main_v1).slice (win0_4.rect t)).set ↔ _
  rw [View.set_slice_whole, Rect.mem_set_unit]
  exact Iff.rfl

/-- Every index of the result is in some point's block: row `r` is in the block of point `r / 2048`. -/
theorem cover (i : S16384x100.Idx) :
    ∃ t : Fin cfg0.N, (cfg0.win 4).flush t = true ∧ i ∈ ((cfg0.win 4).blk t).view.set := by
  have hi0 : (i 0).val < 16384 := (i 0).isLt
  have hi1 : (i 1).val < 100 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 100 ≤ (i 1).val ∧ (i 1).val < win0_4.index t (1 : Fin 2) * 100 + 100; omega

/-- THE RESULT ARRAY after the run is the score array. -/
theorem final (c : Dev nD) : (dats m 0 c).arrAt 4 cfg0.N = score m c :=
  (dats m 0 c).arrAt_eq_of_cover 4 (score m c) (fun t _ => flushed_eq m c t) cover

/-! ## The run, read -/

/-- Every weakly fair execution of the idealized kernel terminates with the result at the score array and the
    arguments unchanged. -/
theorem run : θ_run defs (onTc (τ := τ) (main (F := Ideal))) ⟨m, fun _ => 0, ρ⟩ fun r => ∀ c : Dev nD,
      r.2.mem ((c : Thread nD τ).loc main_v1) = score m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ScoreArray

end
-- ==== Proof.lean ====
/-
  The kernel and its reference compute one function over the extended reals.

  Both programs encode every row of `x` as `z_r = x_r · W + b` and score it against each of the 100 prototypes by
  minus the squared distance `‖z_r − P_c‖²` over 256, in the expanded form
  `−((Σ_j z_r[j]² − 2 · Σ_j z_r[j] · P_c[j]) + Σ_j P_c[j]²) / 256`. The kernel does it on a grid of 8 blocks of 2048
  rows, with its matrix products fed in a narrower float format (a change of format is the identity on the
  extended reals) and its negation written `0 − a`; the reference does it on whole arrays with `negate`. Read at an
  index both are the same tree of sums, products and one quotient, with the same two literals, so no algebraic
  law beyond `0 − a = −a` joins them and the inputs' finiteness is never used.

  * `Proof/Spec.lean`: the score formula at a row and a prototype, and that it reads `x` through that row only.
  * `Proof/RefValue.lean`: the reference's last stage at `(r, c)` is the formula.
  * `Proof/Payload.lean`: the kernel body's stored value at `(p, q)` of a block is the formula at the block's row.
  * `Proof/ScoreArray.lean`: point `t` writes back rows `2048·t …` of the score array, the blocks tile it, so the
    kernel's run ends with the result at the score array.
  The three frames are the generated ones (the reference's is its run with the result dropped); the idealization
  rewrote nothing, so `preserves` is trivial.
-/
import proofs.«152700_j49993419325594_1_alg».proof.Defs
import proofs.«152700_j49993419325594_1_alg».proof.Proof.Gen.Kernel
import proofs.«152700_j49993419325594_1_alg».proof.Proof.Gen.Kernel.Skeleton
import proofs.«152700_j49993419325594_1_alg».proof.Proof.Gen.Kernel.Launch
import proofs.«152700_j49993419325594_1_alg».proof.Proof.Gen.Kernel.Points
import proofs.«152700_j49993419325594_1_alg».proof.Proof.Gen.Kernel.Frame
import proofs.«152700_j49993419325594_1_alg».proof.Proof.Gen.KernelIdeal
import proofs.«152700_j49993419325594_1_alg».proof.Proof.Gen.KernelIdeal.Skeleton
import proofs.«152700_j49993419325594_1_alg».proof.Proof.Gen.KernelIdeal.Launch
import proofs.«152700_j49993419325594_1_alg».proof.Proof.Gen.KernelIdeal.Points
import proofs.«152700_j49993419325594_1_alg».proof.Proof.Gen.KernelIdeal.Frame
import proofs.«152700_j49993419325594_1_alg».proof.Proof.Gen.ReferenceIdeal
import proofs.«152700_j49993419325594_1_alg».proof.Proof.Gen.Pre_finite_inputs
import proofs.«152700_j49993419325594_1_alg».proof.Proof.Gen.KernelIdeal.Value
import proofs.«152700_j49993419325594_1_alg».proof.Proof.Gen.ReferenceIdeal.Run
import proofs.«152700_j49993419325594_1_alg».proof.Proof.Gen.ReferenceIdeal.Read
import proofs.«152700_j49993419325594_1_alg».proof.Proof.RefValue
import proofs.«152700_j49993419325594_1_alg».proof.Proof.ScoreArray
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the idealized kernel ends with its result at the score array
    of its arguments, and the reference ends with its last stage, which at every `(r, c)` is the same score. -/
theorem algebraic : Cert.algebraic_KernelIdeal_ReferenceIdeal := by
  intro m ρ m' ρ' _ hagree
  refine ⟨fun c => Cert.KernelIdeal.ScoreArray.score m c, Cert.KernelIdeal.ScoreArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  funext i
  obtain ⟨r, q, rfl⟩ : ∃ (r : Fin 16384) (q : Fin 100), i = ix2 r q := ⟨i 0, i 1, eq_ix2 (n0 := 16384) (n1 := 100) i⟩
  exact Cert.ReferenceIdeal.RefValue.result_apply _ _ _ _ r q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
